-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | .local _ .vmem, ⟨5, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_16 : BitVec 32 := 7#32
  let v39 : BitVec 1 := Scalar.cmpi .eq arg1 c7_i32_16
  let v40 : BitVec 1 := Scalar.andi v38 v39
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.RbfSpec.lean ====
/-
  The mathematics of the mean radial-basis-function kernel, with no program in sight.

  For two rows `xr`, `yr` of 256 extended reals, the clipped squared distance is
  `max (∑ xr² + ∑ yr² - 2 · ∑ xr·yr) 0` and the kernel value is `exp` of that times `-1/2`.
  One program scales by the literal `-0.5`, the other negates and divides by the literal `2`:
  on every extended real, `(-d) / 2 = d · (-(1/2))`, because dividing by a nonzero real is
  multiplying by its reciprocal and the sign moves through a product.

  The grand total over all 8192 × 8192 pairs of rows is summed by one program pair by pair, and
  by the other tile by tile: 64 tiles of 1024 × 1024 pairs, tile `t` holding the pairs
  `(1024·(t / 8) + r, 1024·(t % 8) + c)`.  Addition of extended reals is commutative and
  associative, so the two totals agree; the statement is the re-indexing
  `Fin 64 × Fin 1024 × Fin 1024 ≃ Fin 8192 × Fin 8192`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Rbf

open Idealize.ShloMosaic Idealize.ShloMosaic.ValueIdx

/-! ## The literals -/

/-- The pattern `0x40000000` denotes the real `2`. -/
theorem ofBits_two : Ideal.ofBits .f32 0x40000000#32 = ((2 : ℝ) : EReal) := by
  simp [Ideal.ofBits, Ideal.ieee, -EReal.coe_mul]; norm_num

/-- The pattern `0xBF000000` denotes the real `-(1/2)`. -/
theorem ofBits_neg_half : Ideal.ofBits .f32 0xBF000000#32 = ((-(1 / 2) : ℝ) : EReal) := by
  simp [Ideal.ofBits, Ideal.ieee, -EReal.coe_mul]; norm_num

/-! ## One pair of rows -/

/-- The clipped squared distance of two rows: `max (‖xr‖² + ‖yr‖² - 2·⟨xr, yr⟩) 0`. -/
def sqdist (xr yr : Fin 256 → EReal) : EReal :=
  max (((∑ k, xr k * xr k) + (∑ k, yr k * yr k)) - Ideal.ofBits .f32 0x40000000#32 * (∑ k, xr k * yr k))
    (Ideal.ofBits .f32 0x00000000#32)

/-- The kernel value of two rows: `exp (sqdist · (-1/2))`. -/
def kval (xr yr : Fin 256 → EReal) : EReal :=
  Ideal.exp (sqdist xr yr * Ideal.ofBits .f32 0xBF000000#32)

/-- Negating and dividing by `2` is scaling by `-(1/2)`, on every extended real. -/
theorem neg_div_two (d : EReal) :
    Ideal.div (-d) (Ideal.ofBits .f32 0x40000000#32) = d * Ideal.ofBits .f32 0xBF000000#32 := by
  rw [ofBits_two, ofBits_neg_half, Ideal.div_coe (by norm_num : (2 : ℝ) ≠ 0), neg_mul, EReal.coe_neg, mul_neg]

/-- The same kernel value, spelled with the negation and the quotient. -/
theorem kval_eq (xr yr : Fin 256 → EReal) :
    Ideal.exp (Ideal.div (-(sqdist xr yr)) (Ideal.ofBits .f32 0x40000000#32)) = kval xr yr := by
  unfold kval; rw [neg_div_two]

/-! ## Tiles -/

/-- Row `r` of row tile `i`: row `1024·i + r` of the whole array. -/
def tileIdx (i : Fin 8) (r : Fin 1024) : Fin 8192 :=
  ⟨1024 * i.val + r.val, by have := i.isLt; have := r.isLt; omega⟩

/-- The first coordinate of grid point `t` of the 8 × 8 grid, walked row-major. -/
def gridRow (t : Fin 64) : Fin 8 := ⟨t.val / 8, by have := t.isLt; omega⟩
/-- Its second coordinate. -/
def gridCol (t : Fin 64) : Fin 8 := ⟨t.val % 8, by omega⟩

variable {M : Type*} [AddCommMonoid M]

/-- A sum over the 8192 rows is the sum over the 8 tiles of the sums over each tile's 1024 rows. -/
theorem sum_rows (g : Fin 8192 → M) : ∑ a, g a = ∑ i : Fin 8, ∑ r : Fin 1024, g (tileIdx i r) := by
  rw [← Equiv.sum_comp (finProdFinEquiv : Fin 8 × Fin 1024 ≃ Fin 8192) g, Fintype.sum_prod_type]
  refine Finset.sum_congr rfl fun i _ => Finset.sum_congr rfl fun r _ => congrArg g (Fin.ext ?_)
  show r.val + 1024 * i.val = 1024 * i.val + r.val
  omega

/-- A sum over the 64 grid points is the double sum over their coordinates. -/
theorem sum_grid (H : Fin 8 → Fin 8 → M) : ∑ t : Fin 64, H (gridRow t) (gridCol t) = ∑ i : Fin 8, ∑ j : Fin 8, H i j := by
  rw [← Equiv.sum_comp (finProdFinEquiv : Fin 8 × Fin 8 ≃ Fin 64), Fintype.sum_prod_type]
  refine Finset.sum_congr rfl fun i _ => Finset.sum_congr rfl fun j _ => ?_
  have hi : gridRow (finProdFinEquiv (i, j)) = i := Fin.ext (by
    show (j.val + 8 * i.val) / 8 = i.val
    have := j.isLt; omega)
  have hj : gridCol (finProdFinEquiv (i, j)) = j := Fin.ext (by
    show (j.val + 8 * i.val) % 8 = j.val
    have := j.isLt; omega)
  rw [hi, hj]

/-- The total over all pairs of rows, tile by tile in grid order, is the total pair by pair. -/
theorem sum_tiles (K : Fin 8192 → Fin 8192 → M) :
    ∑ t : Fin 64, ∑ r : Fin 1024, ∑ c : Fin 1024, K (tileIdx (gridRow t) r) (tileIdx (gridCol t) c)
      = ∑ a : Fin 8192, ∑ b : Fin 8192, K a b := by
  rw [sum_grid (fun i j => ∑ r : Fin 1024, ∑ c : Fin 1024, K (tileIdx i r) (tileIdx j c)), sum_rows]
  refine Finset.sum_congr rfl fun i _ => ?_
  rw [Finset.sum_comm]
  refine Finset.sum_congr rfl fun r _ => ?_
  rw [sum_rows]

/-! ## The whole result -/

/-- The total of the kernel values over all 8192 × 8192 pairs of a row of `x` and a row of `y`. -/
def total (x y : (⟨2, ![8192, 256]⟩ : Shape).Idx → EReal) : EReal :=
  ∑ a : Fin 8192, ∑ b : Fin 8192, kval (fun k => x (ix2 a k)) (fun k => y (ix2 b k))

/-- The mean kernel value: the total divided by the literal `0x4C800000` (the number of pairs, 2²⁶, which neither side
    needs evaluated: both programs divide by the same word). -/
def meanRbf (x y : (⟨2, ![8192, 256]⟩ : Shape).Idx → EReal) : EReal :=
  Ideal.div (total x y) (Ideal.ofBits .f32 0x4C800000#32)

end Cert.Rbf

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelTile.lean ====
/-
  One grid point's contribution, read as a number.

  The body at a grid point takes a 1024 × 256 block of `x` (rows `r`) and a 1024 × 256 block of `y` (rows `c`) and adds to
  the running total the sum, over the 1024 × 1024 pairs `(r, c)`, of the kernel value of row `r` of the one block and
  row `c` of the other.  Read index by index: the row norms are lane sums kept as columns, one of them transposed into
  a row, both broadcast to the square; the cross term is the matrix product of the first block with the transpose of
  the second, a sum over the 256 lanes; the change of format before the product is the identity on extended reals;
  the two reductions of the square (along rows, then down the one remaining column) are a double sum.
-/
import proofs.«127865_j62895501082691_1_alg».proof.Proof.Gen.KernelIdeal.Skeleton
import proofs.«127865_j62895501082691_1_alg».proof.Proof.RbfSpec
import proofs.«127865_j62895501082691_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Idealize.ShloMosaic.Keepdims
open Cert.KernelIdeal Cert.KernelIdeal.Gen Cert.KernelIdeal.Facts₀ Cert.Rbf

/-! ## The reductions at an index -/

/-- A lane sum of an `[a, b]` array, read at row `r`: the sum over the `b` lanes of that row. -/
theorem rowsum_apply {a b : ℕ} (src : FVec Ideal ⟨2, ![a, b]⟩ .f32)
    (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) := by
  refine (Ideal.multiReduction_add_single src 0x00000000#32 h (.inl rfl) rfl (ix1 r)).trans ?_
  exact Finset.sum_congr rfl fun k _ => congrArg src (funext fun c => Fin.ext (by
    match c with | ⟨0, _⟩ => rfl | ⟨1, _⟩ => rfl))

/-- A sum down the rows of an `[a, 1]` column, read at its one entry: the sum over the `a` rows. -/
theorem colsum_apply {a : ℕ} (src : FVec Ideal ⟨2, ![a, 1]⟩ .f32)
    (h : (⟨2, ![a, 1]⟩ : Shape).Reduces [0] ⟨1, ![1]⟩) (u : Fin 1) :
    multiReduction .add [0] ⟨1, ![1]⟩ src 0x00000000#32 h (.inl rfl) rfl (ix1 u) = ∑ r : Fin a, src (ix2 r u) := by
  refine (Ideal.multiReduction_add_single src 0x00000000#32 h (.inl rfl) rfl (ix1 u)).trans ?_
  exact Finset.sum_congr rfl fun k _ => congrArg src (funext fun c => Fin.ext (by
    match c with | ⟨0, _⟩ => rfl | ⟨1, _⟩ => rfl))

/-- The exponential, elementwise. -/
theorem exp_apply {s : Shape} (a : FVec Ideal s .f32) (i : s.Idx) : exp a i = Ideal.exp (a i) := rfl

/-! ## The matrix product at an index -/

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a `[1024, 256]` block with a `[256, 1024]` block into a zero accumulator, read at `(p, q)`: the sum over
    the 256 lanes of row `p` of the one times column `q` of the other. -/
theorem dot_apply (l : FVec Ideal S1024x256 .bf16) (rt : FVec Ideal S256x1024 .bf16) (p q : Fin 1024) :
    matmul dot_S1024x256_S256x1024_S1024x1024_1_0_0_1_n_n none l rt (constant S1024x1024 .f32 0x00000000#32) (ix2 p q)
      = ∑ k : Fin 256, l (ix2 p k) * rt (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## The tile -/

/-- What a grid point leaves in the running total: what it found there plus the sum of the kernel values of the
    1024 × 1024 pairs of rows of its two blocks. -/
theorem pay3_apply (x0 x1 : FVec Ideal S1024x256 .f32) (s : FVec Ideal S1x1 .f32) (u v : Fin 1) :
    k0_pay3 (F := Ideal) x0 x1 s (ix2 u v)
      = s (ix2 u v) + ∑ r : Fin 1024, ∑ c : Fin 1024, kval (fun k => x0 (ix2 r k)) (fun k => x1 (ix2 c k)) := by
  unfold k0_pay3
  simp only [shapeCast_self]
  rw [addf_apply]
  refine congrArg (s (ix2 u v) + ·) ?_
  rw [shapeCast_a_a1_apply, colsum_apply]
  refine Finset.sum_congr rfl fun r _ => ?_
  rw [shapeCast_a_a1_apply, rowsum_apply]
  refine Finset.sum_congr rfl fun c _ => ?_
  simp only [exp_apply, mulf_apply, maximumf_apply, subf_apply, addf_apply, broadcast_apply,
    broadcastTo_a1_ab_apply, broadcastTo_1b_ab_apply, transpose_ix2_apply, shapeCast_a_a1_apply, rowsum_apply,
    dot_apply, truncf_apply]
  rw [rowsum_apply]
  rw [transpose_ix2_apply]
  rw [shapeCast_a_a1_apply, rowsum_apply]
  have hT : ∀ k : Fin 256, transpose S256x1024 [1, 0] (truncf .bf16 x1 Gen.bitsLt_bf16_f32) Gen.transposes_S1024x256_p1_0_S256x1024 (ix2 k c) = x1 (ix2 c k) :=
    fun k => transpose_ix2_apply _ _ k c
  simp only [hT, mulf_apply]
  rfl

end Cert.KernelIdeal.Tile

end
-- ==== Proof.KernelRun.lean ====
/-
  The kernel's run, read as a value.

  The scratch cell carries a running total across the 64 grid points: the first point stores zero and adds its tile's
  sum, every later point adds its own, and the last point also stores the total divided by the literal `2²⁶` into the
  output block, the only point whose block is written back.  So after point `n` the cell holds the sum of the tile sums
  of points `0 … n` (induction on the point), the one written-back block is the whole 1 × 1 result array, and the reshape
  after the region reads that array at its one entry.  A block of `x` at point `t` is rows `1024·(t / 8) …` of `x`, a
  block of `y` rows `1024·(t % 8) …` of `y`; the sum of the 64 tile sums is therefore the total over all pairs of rows.
-/
import proofs.«127865_j62895501082691_1_alg».proof.Proof.Gen.KernelIdeal.Frame
import proofs.«127865_j62895501082691_1_alg».proof.Proof.KernelTile
import Idealize.ShloMosaic.Lib.Pipeline.Value
import Idealize.ShloMosaic.Lib.StableHlo.Run
import Idealize.ShloMosaic.Lib.Tactic

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.Rbf

/-! ## What each case of the body leaves, as payloads -/

section Pieces

variable {F : FTy → Type} [FloatOps F]

theorem hz : (![0, 0] : Fin 2 → Nat) = fun _ => 0 := funext fun a => by fin_cases a <;> rfl

/-- A middle point leaves in the scratch cell the accumulating payload of its two blocks and what it found there. -/
theorem sout_B (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 x1 : Vec F S1024x256 .f32) (xs0 : Vec F S1x1 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1024x256) hz,
    View.ld_unit_zero (S := S1x1) hz]

/-- The first point stores the zero cell, reads it back, and leaves the accumulating payload over it. -/
theorem sout_A (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 x1 : Vec F S1024x256 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz]
  simp only [View.readAt_eq_ld, h2.read_unread, h3.read_unread, View.ld_unit_zero (S := S1024x256) hz,
    View.ld_unit_zero (S := S1x1) hz, View.readCov_unit_zero (S := S1x1) _ hz]

/-- The last point leaves the same in the scratch cell, -/
theorem sout_C (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S1024x256 .f32) (xs0 : Vec F S1x1 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x256) hz,
    View.ld_unit_zero (S := S1x1) hz]

/-- and in the output block the scaling payload of that cell, read back after the store. -/
theorem out_C (c : Dev nD) (i : grid0.Coords) (a2 : Memref sig .tc .vmem S1024x256 .f32) (h2 : a2.IsWhole)
    (a3 : Memref sig .tc .vmem S1024x256 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S1024x256 .f32) (xs0 : Vec F S1x1 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x256) hz,
    View.ld_unit_zero (S := S1x1) hz, View.readCov_unit_zero (S := S1x1) _ hz]

variable (m : (ℓ : Loc nD τ sig) → Buf (Elt F) ℓ)

/-- The two input blocks at a point, at their literal type. -/
abbrev xblk (c : Dev nD) (t : Fin cfg0.N) : Vec F S1024x256 .f32 := iblk m c 0 t
abbrev yblk (c : Dev nD) (t : Fin cfg0.N) : Vec F S1024x256 .f32 := iblk m c 1 t

/-- The scratch cell after the first point. -/
theorem cell_A (c : Dev nD) (t : Fin cfg0.N) (h0 : t.val % 64 = 0) (h1 : ¬t.val % 64 = 63) :
    (outsAt0 m c t.val t.isLt).2 = k0_pay3 (xblk m c t) (yblk m c t) (k0_pay2 (F := F)) := by
  rw [outsAt0_A m c t h0 h1]
  dsimp only
  exact sout_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- The scratch cell after a middle point, over what the point before left. -/
theorem cell_B (c : Dev nD) (t : Fin cfg0.N) (h0 : ¬t.val % 64 = 0) (h1 : ¬t.val % 64 = 63) :
    (outsAt0 m c t.val t.isLt).2 = k0_pay3 (xblk m c t) (yblk m c t)
      (outsAt0 m c (t.val - 1) (Nat.lt_of_le_of_lt (Nat.sub_le _ _) t.isLt)).2 := by
  rw [outsAt0_B m c t h0 h1]
  dsimp only
  exact sout_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- The scratch cell after the last point, over what the point before left. -/
theorem cell_C (c : Dev nD) (t : Fin cfg0.N) (h0 : ¬t.val % 64 = 0) (h1 : t.val % 64 = 63) :
    (outsAt0 m c t.val t.isLt).2 = k0_pay3 (xblk m c t) (yblk m c t)
      (outsAt0 m c (t.val - 1) (Nat.lt_of_le_of_lt (Nat.sub_le _ _) t.isLt)).2 := by
  rw [outsAt0_C m c t h0 h1]
  dsimp only
  exact sout_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- The output block after the last point: the scaling payload of the scratch cell that point leaves. -/
theorem block_C (c : Dev nD) (t : Fin cfg0.N) (h0 : ¬t.val % 64 = 0) (h1 : t.val % 64 = 63) :
    (outsAt0 m c t.val t.isLt).1 = k0_pay1 (outsAt0 m c t.val t.isLt).2 := by
  rw [cell_C m c t h0 h1, outsAt0_C m c t h0 h1]
  dsimp only
  exact out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

end Pieces

/-! ## The running total -/

section Value

variable (m : (ℓ : Loc nD τ sig) → Buf (Elt Ideal) ℓ) (ρ : Dev nD → PrngReg)

/-- The sum of the kernel values over the pairs of rows of the two blocks at a point. -/
def tileSum (c : Dev nD) (t : Fin cfg0.N) : EReal :=
  ∑ r : Fin 1024, ∑ q : Fin 1024, kval (fun k => xblk m c t (ix2 r k)) (fun k => yblk m c t (ix2 q k))

/-- The same by the point's number (zero past the grid, where nothing is summed). -/
def tileSumN (c : Dev nD) (n : ℕ) : EReal := if h : n < cfg0.N then tileSum m c ⟨n, h⟩ else 0

/-- The zero cell the first point stores. -/
theorem pay2_apply (j : S1x1.Idx) : k0_pay2 (F := Ideal) j = 0 := by
  unfold k0_pay2
  simp only [shapeCast_self]
  exact Ideal.ofBits_zero_f32

/-- After point `n` the scratch cell holds the sum of the tile sums of the points up to `n`: by induction on the point. -/
theorem cell_eq (c : Dev nD) (u v : Fin 1) : ∀ (n : ℕ) (h : n < cfg0.N),
    (outsAt0 m c n h).2 (ix2 u v) = ∑ t ∈ Finset.range (n + 1), tileSumN m c t
  | 0, h => by
    have e := cell_A m c ⟨0, h⟩ rfl (by show ¬0 % 64 = 63; decide)
    refine (congrFun e (ix2 u v)).trans ?_
    refine (Tile.pay3_apply _ _ _ u v).trans ?_
    rw [pay2_apply, zero_add, Finset.sum_range_one, tileSumN, dif_pos h]
    rfl
  | n + 1, h => by
    have hN : cfg0.N = 64 := N_0
    have h0 : ¬(⟨n + 1, h⟩ : Fin cfg0.N).val % 64 = 0 := by dsimp only; omega
    have key : (outsAt0 m c (n + 1) h).2
        = k0_pay3 (xblk m c ⟨n + 1, h⟩) (yblk m c ⟨n + 1, h⟩) (outsAt0 m c n (Nat.lt_of_succ_lt h)).2 := by
      by_cases h1 : (⟨n + 1, h⟩ : Fin cfg0.N).val % 64 = 63
      · exact cell_C m c ⟨n + 1, h⟩ h0 h1
      · exact cell_B m c ⟨n + 1, h⟩ h0 h1
    refine (congrFun key (ix2 u v)).trans ?_
    refine (Tile.pay3_apply _ _ _ u v).trans ?_
    rw [cell_eq c u v n (Nat.lt_of_succ_lt h), Finset.sum_range_succ _ (n + 1), tileSumN, dif_pos h]
    rfl

/-! ## The blocks are rows of the arrays -/

/-- Where the windows' blocks sit, decided over the grid: `x`'s block at point `t` is row tile `t / 8`, `y`'s row tile `t % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0)

/-- Row `r` of `x`'s block at point `t` is row `1024·(t / 8) + r` of `x`. -/
theorem xblk_apply (c : Dev nD) (t : Fin 64) (ht : t.val < cfg0.N) (r : Fin 1024) (k : Fin 256) :
    xblk m c ⟨t.val, ht⟩ (ix2 r k) = m ((c.tc : Thread nD τ).loc main_arg0) (ix2 (tileIdx (gridRow t) r) k) := by
  unfold xblk iblk
  rw [View.read_apply]
  show V m c main_arg0 _ = m ((c.tc : Thread nD τ).loc main_arg0) _
  rw [V_main_arg0]
  congr 1
  funext a
  apply Fin.ext
  have hi : win0_0.index ⟨t.val, ht⟩ (0 : Fin 2) = t.val / 8 ∧ win0_0.index ⟨t.val, ht⟩ (1 : Fin 2) = 0
      ∧ win0_1.index ⟨t.val, ht⟩ (0 : Fin 2) = t.val % 8 ∧ win0_1.index ⟨t.val, ht⟩ (1 : Fin 2) = 0 := idx_facts ⟨t.val, ht⟩
  match a with
  | ⟨0, _⟩ =>
    show win0_0.index ⟨t.val, ht⟩ 0 * 1024 + 1 * r.val = 1024 * (t.val / 8) + r.val
    rw [hi.1]; omega
  | ⟨1, _⟩ =>
    show win0_0.index ⟨t.val, ht⟩ 1 * 256 + 1 * k.val = k.val
    rw [hi.2.1]; omega

/-- Row `q` of `y`'s block at point `t` is row `1024·(t % 8) + q` of `y`. -/
theorem yblk_apply (c : Dev nD) (t : Fin 64) (ht : t.val < cfg0.N) (q : Fin 1024) (k : Fin 256) :
    yblk m c ⟨t.val, ht⟩ (ix2 q k) = m ((c.tc : Thread nD τ).loc main_arg1) (ix2 (tileIdx (gridCol t) q) k) := by
  unfold yblk iblk
  rw [View.read_apply]
  show V m c main_arg1 _ = m ((c.tc : Thread nD τ).loc main_arg1) _
  rw [V_main_arg1]
  congr 1
  funext a
  apply Fin.ext
  have hi : win0_0.index ⟨t.val, ht⟩ (0 : Fin 2) = t.val / 8 ∧ win0_0.index ⟨t.val, ht⟩ (1 : Fin 2) = 0
      ∧ win0_1.index ⟨t.val, ht⟩ (0 : Fin 2) = t.val % 8 ∧ win0_1.index ⟨t.val, ht⟩ (1 : Fin 2) = 0 := idx_facts ⟨t.val, ht⟩
  match a with
  | ⟨0, _⟩ =>
    show win0_1.index ⟨t.val, ht⟩ 0 * 1024 + 1 * q.val = 1024 * (t.val % 8) + q.val
    rw [hi.2.2.1]; omega
  | ⟨1, _⟩ =>
    show win0_1.index ⟨t.val, ht⟩ 1 * 256 + 1 * k.val = k.val
    rw [hi.2.2.2]; omega

/-- The 64 tile sums add up to the total over all pairs of a row of `x` and a row of `y`. -/
theorem sum_tileSum (c : Dev nD) : ∑ t ∈ Finset.range 64, tileSumN m c t
    = total (m ((c.tc : Thread nD τ).loc main_arg0)) (m ((c.tc : Thread nD τ).loc main_arg1)) := by
  have hN : cfg0.N = 64 := N_0
  rw [Finset.sum_range]
  unfold total
  rw [← sum_tiles (fun a b => kval (fun k => m ((c.tc : Thread nD τ).loc main_arg0) (ix2 a k))
    (fun k => m ((c.tc : Thread nD τ).loc main_arg1) (ix2 b k)))]
  refine Finset.sum_congr rfl fun t _ => ?_
  have ht : t.val < cfg0.N := by rw [hN]; exact t.isLt
  rw [tileSumN, dif_pos ht]
  unfold tileSum
  refine Finset.sum_congr rfl fun r _ => Finset.sum_congr rfl fun q _ => ?_
  have ex : (fun k => xblk m c ⟨t.val, ht⟩ (ix2 r k)) = fun k => m ((c.tc : Thread nD τ).loc main_arg0) (ix2 (tileIdx (gridRow t) r) k) :=
    funext fun k => xblk_apply m c t ht r k
  have ey : (fun k => yblk m c ⟨t.val, ht⟩ (ix2 q k)) = fun k => m ((c.tc : Thread nD τ).loc main_arg1) (ix2 (tileIdx (gridCol t) q) k) :=
    funext fun k => yblk_apply m c t ht q k
  rw [ex, ey]

/-! ## The result array and the result -/

/-- The last grid point. -/
abbrev tLast : Fin cfg0.N := ⟨63, by rw [show cfg0.N = 64 from N_0]; decide⟩

/-- The mean kernel value of the two argument arrays. -/
abbrev mean (c : Dev nD) : EReal :=
  meanRbf (m ((c.tc : Thread nD τ).loc main_arg0)) (m ((c.tc : Thread nD τ).loc main_arg1))

/-- The 1 × 1 result array the region leaves. -/
abbrev blockResult (c : Dev nD) : Buf (Elt Ideal) ((c : Thread nD τ).loc main_v0) := fun _ => mean m c

/-- After the last point the output block holds the mean. -/
theorem out_last (c : Dev nD) : (outsAt0 m c tLast.val tLast.isLt).1 = blockResult m c := by
  rw [block_C m c tLast (by decide) rfl]
  funext j
  obtain ⟨u, v, rfl⟩ : ∃ (u v : Fin 1), j = ix2 u v := ⟨j 0, j 1, eq_ix2 j⟩
  show Ideal.div ((outsAt0 m c tLast.val tLast.isLt).2 (ix2 u v)) (Ideal.ofBits .f32 0x4C800000#32) = _
  rw [cell_eq m c u v 63 tLast.isLt, sum_tileSum]
  rfl

/-- The one write-back, at the last point, writes it: the block is the whole array. -/
theorem flushed_eq (c : Dev nD) (t : Fin cfg0.N) (hf : (cfg0.win 2).flush t = true) :
    (dats m 0 c).flushed 2 t = ((cfg0.win 2).blk t).view.read (Elt Ideal) (blockResult m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_last]
  have hz' : (fun a => win0_2.index tLast a * main_v0.ty.shape.size a) = fun _ => 0 := funext fun a => by fin_cases a <;> decide
  exact (Memref.read_access_unit_zero (Elt Ideal) main_v0 hz' (fun a => by rw [congrFun hz' a]; simp) (blockResult m c)).symm

/-- So the result array ends holding the mean. -/
theorem final_o (c : Dev nD) : (dats m 0 c).arrAt 2 cfg0.N = blockResult m c :=
  (dats m 0 c).arrAt_eq_of_cover 2 (blockResult m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the region reads the 1 × 1 array at its one entry. -/
theorem tail_eq (c : Dev nD) :
    Pipeline.afterTail₀ cfgs (dats m) 0 (V0 m) [hostOps1] c main_v1 = fun _ => mean m c := by
  unfold Pipeline.afterTail₀
  show StableHlo.after hostOps1 _ (Proc.devRef .tc main_v1) = _
  after_results
  funext i
  show shapeCast S_ (Pipeline.withArrays spec0 c (V0 m c) (fun w => (dats m 0 c).arrAt w cfg0.N)
    (Proc.devRef .tc (Pipeline.arrRef spec0 2))) shapeCasts_S1x1_S_ i = _
  rw [Pipeline.withArrays_arr spec0 launch0.win.arr_inj c _ _ 2, final_o]
  rfl

/-- The run, read: the result at the mean kernel value of the arguments, the arguments unchanged. -/
theorem run : θ_run defs (onTc (τ := τ) (main (F := Ideal))) ⟨m, fun _ => 0, ρ⟩ fun r => ∀ c : Dev nD,
      r.2.mem ((c.tc : Thread nD τ).loc main_v1) = (fun _ => mean m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Value

end Cert.KernelIdeal.Acc

end
-- ==== Proof.RefValue.lean ====
/-
  The reference, read as a value.

  Entry `(a, b)` of the reference's 8192 × 8192 array of kernel values depends on row `a` of `x` and row `b` of `y` only:
  the two row norms are host sums over the 256 lanes (each from the initial value zero), broadcast along a column and
  along a row; the cross term is the product of `x` with the transpose of `y`, a sum over the 256 lanes; the
  negation and the quotient by `2` are the scaling by `-(1/2)`.  The mean is the host's sum of all entries, from zero,
  divided by the literal `2²⁶`; a sum over the index set of a rank-2 array is the double sum over its coordinates.
-/
import proofs.«127865_j62895501082691_1_alg».proof.Proof.Gen.ReferenceIdeal.Read
import proofs.«127865_j62895501082691_1_alg».proof.Proof.RbfSpec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.Rbf

/-! ## Which elements an entry reads -/

/-- The row norm of `x` broadcast to `(a, b)` sums row `a`. -/
theorem row_x (a b : Fin 8192) (k : Fin 256) : idx_main_v1 (idx_main_v4 (idx_main_v6 (ix2 a b))) k = ix2 a k :=
  funext fun d => Fin.ext (by match d with | ⟨0, _⟩ => rfl | ⟨1, _⟩ => rfl)
/-- The row norm of `y` broadcast to `(a, b)` sums row `b`. -/
theorem row_y (a b : Fin 8192) (k : Fin 256) : idx_main_v3 (idx_main_v5 (idx_main_v7 (ix2 a b))) k = ix2 b k :=
  funext fun d => Fin.ext (by match d with | ⟨0, _⟩ => rfl | ⟨1, _⟩ => rfl)
/-- The product at `(a, b)` reads `x` along row `a`, -/
theorem dot_x (a b : Fin 8192) (k : Fin 256) : lidx_main_v10 (ix2 a b) k = ix2 a k :=
  funext fun d => Fin.ext (by match d with | ⟨0, _⟩ => rfl | ⟨1, _⟩ => rfl)
/-- and the transposed `y` down column `b`, which is `y` along row `b`. -/
theorem dot_y (a b : Fin 8192) (k : Fin 256) : idx_main_v9 (ridx_main_v10 (ix2 a b) k) = ix2 b k :=
  funext fun d => Fin.ext (by match d with | ⟨0, _⟩ => rfl | ⟨1, _⟩ => rfl)

/-! ## The entries and the mean -/

/-- Entry `(a, b)` of the reference's array of kernel values is the kernel value of row `a` of `x` and row `b` of `y`. -/
theorem entry (x0 x1 : (⟨S8192x256, .f32⟩ : BufTy).Contents (Elt Ideal)) (a b : Fin 8192) :
    val_main_v19 (F := Ideal) x0 x1 (ix2 a b) = kval (fun k => x0 (ix2 a k)) (fun k => x1 (ix2 b k)) := by
  rw [← kval_eq]
  unfold sqdist
  simp only [val_main_v19_apply, val_main_v18_apply, val_main_v17_apply, val_main_v16_apply, val_main_v15_apply,
    val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply,
    val_main_cst_1_apply, val_main_cst_2_apply, val_main_cst_3_apply, row_x, row_y, dot_x, dot_y,
    Ideal.hostUnary_exp_def, Ideal.hostDivf_def, Ideal.hostNegf_def, Ideal.negf_def, Ideal.maximumf_def, Ideal.subf_def,
    Ideal.addf_def, Ideal.mulf_def, Ideal.ofBits_def, Ideal.ofBits_zero_f32, zero_add]

/-- The reference's result is the mean kernel value of its two arguments. -/
theorem result_eq (x0 x1 : (⟨S8192x256, .f32⟩ : BufTy).Contents (Elt Ideal)) :
    val_main_v21 (F := Ideal) x0 x1 = fun _ => meanRbf x0 x1 := by
  funext i
  rw [val_main_v21_apply, val_main_v20_apply, sum_idx2]
  simp only [entry, val_main_cst_4_apply, val_main_cst_5_apply, Ideal.hostDivf_def, Ideal.ofBits_def,
    Ideal.ofBits_zero_f32, zero_add]
  rfl

end Cert.ReferenceIdeal.RefValue

end
-- ==== Proof.lean ====
/-
  The mean radial-basis-function kernel of two 8192 × 256 arrays, tiled, against the plain formula.

  Both programs compute, over the extended reals, the total over all pairs of a row of `x` and a row of `y` of
  `exp (max (‖x_a‖² + ‖y_b‖² - 2·⟨x_a, y_b⟩) 0 · (-1/2))`, divided by the number of pairs.  The tiled program walks an
  8 × 8 grid of 1024 × 1024 tiles and carries the running total in a one-element cell, dividing at the last tile; the plain
  one forms every entry and sums them all.  The two differ in three ways, none of which matters on the extended reals:
  the order and grouping of the sum (addition is commutative and associative), the scaling `· (-0.5)` against
  `negate` then `/ 2` (division by a nonzero real is multiplication by its reciprocal), and a change of float format
  before the matrix product (the identity).  No step uses that the inputs are finite.

  The three frames: the tiled program's two are its run with the result dropped; the plain program's is its run
  likewise.  The idealization rewrote no operation, so there is nothing to preserve.
-/
import proofs.«127865_j62895501082691_1_alg».proof.Defs
import proofs.«127865_j62895501082691_1_alg».proof.Proof.Gen.Kernel
import proofs.«127865_j62895501082691_1_alg».proof.Proof.Gen.Kernel.Frame
import proofs.«127865_j62895501082691_1_alg».proof.Proof.Gen.KernelIdeal
import proofs.«127865_j62895501082691_1_alg».proof.Proof.Gen.KernelIdeal.Frame
import proofs.«127865_j62895501082691_1_alg».proof.Proof.Gen.ReferenceIdeal
import proofs.«127865_j62895501082691_1_alg».proof.Proof.Gen.ReferenceIdeal.Run
import proofs.«127865_j62895501082691_1_alg».proof.Proof.Gen.ReferenceIdeal.Read
import proofs.«127865_j62895501082691_1_alg».proof.Proof.Gen.Pre_finite_inputs
import proofs.«127865_j62895501082691_1_alg».proof.Proof.KernelRun
import proofs.«127865_j62895501082691_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the mean kernel value of the argument arrays, which agree. -/
theorem algebraic : Cert.algebraic_KernelIdeal_ReferenceIdeal := by
  intro m ρ m' ρ' _ hagree
  refine ⟨fun c => fun _ => Cert.KernelIdeal.Acc.mean m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
